-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 1) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S53248x128 : Shape := ⟨2, ![53248, 128]⟩
abbrev S50000x1 : Shape := ⟨2, ![50000, 1]⟩
abbrev S53248x1 : Shape := ⟨2, ![53248, 1]⟩
abbrev S4096x128 : Shape := ⟨2, ![4096, 128]⟩
abbrev S4096x1 : Shape := ⟨2, ![4096, 1]⟩

abbrev nBuf : Space → Nat
  | .hbm => 57
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i1⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S_, .f32⟩
  | .hbm, ⟨27, _⟩ => ⟨S128, .f32⟩
  | .hbm, ⟨28, _⟩ => ⟨S1x128, .f32⟩
  | .hbm, ⟨29, _⟩ => ⟨S_, .f32⟩
  | .hbm, ⟨30, _⟩ => ⟨S1x128, .f32⟩
  | .hbm, ⟨31, _⟩ => ⟨S1x128, .f32⟩
  | .hbm, ⟨32, _⟩ => ⟨S128x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S_, .i32⟩
  | .hbm, ⟨37, _⟩ => ⟨S_, .f32⟩
  | .hbm, ⟨38, _⟩ => ⟨S53248x128, .f32⟩
  | .hbm, ⟨39, _⟩ => ⟨S50000x128, .bf16⟩
  | .hbm, ⟨40, _⟩ => ⟨S_, .i32⟩
  | .hbm, ⟨41, _⟩ => ⟨S_, .bf16⟩
  | .hbm, ⟨42, _⟩ => ⟨S53248x128, .bf16⟩
  | .hbm, ⟨43, _⟩ => ⟨S50000, .f32⟩
  | .hbm, ⟨44, _⟩ => ⟨S50000, .bf16⟩
  | .hbm, ⟨45, _⟩ => ⟨S50000x1, .bf16⟩
  | .hbm, ⟨46, _⟩ => ⟨S_, .i32⟩
  | .hbm, ⟨47, _⟩ => ⟨S_, .bf16⟩
  | .hbm, ⟨48, _⟩ => ⟨S53248x1, .bf16⟩
  | .hbm, ⟨49, _⟩ => ⟨S128x128, .f32⟩
  | .hbm, ⟨50, _⟩ => ⟨S128x128, .bf16⟩
  | .hbm, ⟨51, _⟩ => ⟨S128x128, .f32⟩
  | .hbm, ⟨52, _⟩ => ⟨S128x128, .bf16⟩
  | .hbm, ⟨53, _⟩ => ⟨S1x128, .f32⟩
  | .hbm, ⟨54, _⟩ => ⟨S1x128, .f32⟩
  | .hbm, ⟨55, _⟩ => ⟨S53248x128, .f32⟩
  | .hbm, ⟨56, _⟩ => ⟨S50000x128, .f32⟩
  | .local _ .vmem, ⟨0, _⟩ => ⟨S4096x128, .f32⟩
  | .local _ .vmem, ⟨1, _⟩ => ⟨S4096x128, .f32⟩
  | .local _ .vmem, ⟨2, _⟩ => ⟨S4096x128, .bf16⟩
  | .local _ .vmem, ⟨3, _⟩ => ⟨S4096x128, .bf16⟩
  | .local _ .vmem, ⟨4, _⟩ => ⟨S4096x1, .bf16⟩
  | .local _ .vmem, ⟨5, _⟩ => ⟨S4096x1, .bf16⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S4096x128, .f32⟩
  | .local _ .vmem, ⟨12, _⟩ => ⟨S4096x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_call0_v0 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_call1_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_call2_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  transposes_S128x128_S128x128_1_0 : S128x128.Transposes [1, 0] S128x128
  pads_S50000x128_S53248x128_032480_000 : S50000x128.Pads (![0, 0] : Fin 2 → Nat) ![3248, 0] ![0, 0] S53248x128
  bitsLt_bf16_f32 : FTy.bits .bf16 < FTy.bits .f32
  shapeCasts_S50000_S50000x1 : S50000.ShapeCasts S50000x1
  pads_S50000x1_S53248x1_032480_000 : S50000x1.Pads (![0, 0] : Fin 2 → Nat) ![3248, 0] ![0, 0] S53248x1
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  slices_S53248x128_S50000x128_0_0 : S53248x128.Slices ![0, 0] S50000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1x128_S128x128_S1x128_1_0_0_1_n_n_wf : DotDims.WF S1x128 S128x128 S1x128 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S53248x128.size a
  hwx0_0 : ∀ i : grid0.Coords, EltTy.bits .f32 = 32 ∨ (Rect.block (s := S53248x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S53248x128.size a
  hwx0_1 : ∀ i : grid0.Coords, EltTy.bits .bf16 = 32 ∨ (Rect.block (s := S53248x128) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S53248x1.size a
  hwx0_2 : ∀ i : grid0.Coords, EltTy.bits .bf16 = 32 ∨ (Rect.block (s := S53248x1) S4096x1.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x128.size a ≤ S53248x128.size a
  hwx0_8 : ∀ i : grid0.Coords, EltTy.bits .f32 = 32 ∨ (Rect.block (s := S53248x128) S4096x128.size (cc0_transform_8 i) (hinb0_8 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v22) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v35) S4096x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x1 : Shape := ⟨2, ![50000, 1]⟩

abbrev nBuf : Space → Nat
  | .hbm => 54
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i1⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S_, .f32⟩
  | .hbm, ⟨27, _⟩ => ⟨S128, .f32⟩
  | .hbm, ⟨28, _⟩ => ⟨S1x128, .f32⟩
  | .hbm, ⟨29, _⟩ => ⟨S_, .f32⟩
  | .hbm, ⟨30, _⟩ => ⟨S1x128, .f32⟩
  | .hbm, ⟨31, _⟩ => ⟨S1x128, .f32⟩
  | .hbm, ⟨32, _⟩ => ⟨S128x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S50000x1, .i1⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .i1⟩
  | .hbm, ⟨44, _⟩ => ⟨S50000x128, .f32⟩
  | .hbm, ⟨45, _⟩ => ⟨S50000x128, .f32⟩
  | .hbm, ⟨46, _⟩ => ⟨S128x128, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  transposes_S128x128_S128x128_1_0 : S128x128.Transposes [1, 0] S128x128
  bcast_S50000_S50000x1_0 : S50000.BroadcastsInDim S50000x1 (![0] : Fin 1 → Fin S50000x1.rank)
  bcast_S1x128_S50000x128_0_1 : S1x128.BroadcastsInDim S50000x128 (![0, 1] : Fin 2 → Fin S50000x128.rank)
  bcast_S50000x1_S50000x128_0_1 : S50000x1.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1x128_S128x128_S1x128_1_0_0_1_n_n_wf : DotDims.WF S1x128 S128x128 S1x128 [1] [0] [0] [1] [] []
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Layer.lean ====
/-
  The layer both programs compute, as one function of its arrays, entry by entry.

  For node `i` and output channel `j`, with `lin a W b i j = Σ_k a[i,k]·W[j,k] + b[j]` (a row times the transposed
  weight matrix, plus the bias):

      layer[i,j] = (mask[i] ? lin x Wr br i j : 0) + lin loc Wn bn i j + glob[0,j]

  where `loc` is the table of aggregated neighbour features and `glob` the one-row global term; both are left
  abstract here, since the two programs compute them by the same host operations.  The root branch is gated by a
  SELECT on the mask bit; a program that instead MULTIPLIES by the bit converted to a number computes the same
  extended real, because `a · 1 = a` and `a · 0 = 0` hold for every extended real, the infinities included
  (`mul_bit`).  No other law of arithmetic is needed, so nothing here asks for finite entries.
-/
import Idealize.ShloMosaic.PureOps.Ideal
import Idealize.ShloMosaic.Lib.ValueIdx

noncomputable section

open scoped BigOperators

namespace Cert.Layer

open Idealize.ShloMosaic Idealize.ShloMosaic.ValueIdx

/-- One linear map read at row `i`, channel `j`: the row of `a` against row `j` of `W` (that is, against column
    `j` of `W` transposed), plus the bias. -/
def lin (a : (⟨2, ![50000, 128]⟩ : Shape).Idx → EReal) (W : (⟨2, ![128, 128]⟩ : Shape).Idx → EReal)
    (b : (⟨1, ![128]⟩ : Shape).Idx → EReal) (i : Fin 50000) (j : Fin 128) : EReal :=
  (∑ k : Fin 128, a (ix2 i k) * W (ix2 j k)) + b (ix1 j)

/-- The layer's output at an index: the gated root branch, the neighbour branch, the global row. -/
def layer (x loc : (⟨2, ![50000, 128]⟩ : Shape).Idx → EReal) (mask : (⟨1, ![50000]⟩ : Shape).Idx → BitVec 1)
    (Wr : (⟨2, ![128, 128]⟩ : Shape).Idx → EReal) (br : (⟨1, ![128]⟩ : Shape).Idx → EReal)
    (Wn : (⟨2, ![128, 128]⟩ : Shape).Idx → EReal) (bn : (⟨1, ![128]⟩ : Shape).Idx → EReal)
    (glob : (⟨2, ![1, 128]⟩ : Shape).Idx → EReal) : (⟨2, ![50000, 128]⟩ : Shape).Idx → EReal := fun i =>
  (Scalar.select (mask (ix1 (i 0))) (lin x Wr br (i 0) (i 1)) 0 + lin loc Wn bn (i 0) (i 1))
    + glob (ix2 (0 : Fin 1) (i 1))

/-- Multiplying by a mask bit read as the number 0 or 1 is selecting on the bit: `a · 1 = a` and `a · 0 = 0` on
    every extended real. -/
theorem mul_bit (a : EReal) (b : BitVec 1) : a * ((b.toNat : ℝ) : EReal) = Scalar.select b a 0 := by
  rcases BitVec.eq_zero_or_eq_one b with rfl | rfl
  · simp [Scalar.select]
  · simp [Scalar.select]

end Cert.Layer

end
-- ==== Proof.RefStages.lean ====
/-
  The reference program's result is the layer function of its arguments.

  Read one operation at a time, the reference's last value at node `p`, channel `q` is

      (select mask[p] (Σ_k x[p,k]·Wrᵀ[k,q] + br[q]) 0 + (Σ_k loc[p,k]·Wnᵀ[k,q] + bn[q])) + glob[0,q]

  with `loc` the scatter-added neighbour features and `glob` the global row, both kept as the stages that compute
  them.  A transposed weight read at `[k,q]` is the weight at `[q,k]`, a broadcast bias read at `[p,q]` is the bias
  at `q`, and the select's zero literal is the real number 0.  That is `Cert.Layer.layer` term for term.
-/
import proofs.«415633_j54013508715190_3_alg».proof.Proof.Gen.ReferenceIdeal.Read
import proofs.«415633_j54013508715190_3_alg».proof.Proof.Layer

noncomputable section

open scoped BigOperators

namespace Cert.ReferenceIdeal.AsLayer

open Cert.ReferenceIdeal Cert.ReferenceIdeal.Gen Cert.ReferenceIdeal.Read
open Idealize.ShloMosaic Idealize.ShloMosaic.ValueIdx Cert.Layer

/-- The reference's result stage, index by index, is the layer function of the arguments, of the neighbour-feature
    stage and of the global-row stage. -/
theorem result_eq (x0 : (⟨S50000x128, .f32⟩ : BufTy).Contents (Elt Ideal)) (x1 : (⟨S2x800000, .i32⟩ : BufTy).Contents (Elt Ideal))
    (x2 : (⟨S50000, .i1⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) :
    val_main_v36 (F := Ideal) x0 x1 x2 x3 x4 x5 x6 x7 x8
      = layer x0 (val_main_v13 (F := Ideal) x0 x1) x2 x3 x4 x5 x6 (val_main_v21 (F := Ideal) x0 x7 x8) := by
  funext i
  obtain ⟨p, q, rfl⟩ : ∃ (p : Fin 50000) (q : Fin 128), i = ix2 p q := ⟨i 0, i 1, eq_ix2 i⟩
  have eL : ∀ k : Fin 128, lidx_main_v24 (ix2 p q) k = ix2 p k := fun k =>
    funext fun a => Fin.ext (by match a with | ⟨0, _⟩ => rfl | ⟨1, _⟩ => rfl)
  have eR : ∀ k : Fin 128, idx_main_v23 (ridx_main_v24 (ix2 p q) k) = ix2 q k := fun k =>
    funext fun a => Fin.ext (by match a with | ⟨0, _⟩ => rfl | ⟨1, _⟩ => rfl)
  have eL' : ∀ k : Fin 128, lidx_main_v30 (ix2 p q) k = ix2 p k := fun k =>
    funext fun a => Fin.ext (by match a with | ⟨0, _⟩ => rfl | ⟨1, _⟩ => rfl)
  have eR' : ∀ k : Fin 128, idx_main_v29 (ridx_main_v30 (ix2 p q) k) = ix2 q k := fun k =>
    funext fun a => Fin.ext (by match a with | ⟨0, _⟩ => rfl | ⟨1, _⟩ => rfl)
  have eB : idx_main_v25 (idx_main_v26 (ix2 p q)) = ix1 q :=
    funext fun a => Fin.ext (by match a with | ⟨0, _⟩ => rfl)
  have eB' : idx_main_v31 (idx_main_v32 (ix2 p q)) = ix1 q :=
    funext fun a => Fin.ext (by match a with | ⟨0, _⟩ => rfl)
  have eM : idx_main_v22 (idx_main_call0_v0 (ix2 p q)) = ix1 p :=
    funext fun a => Fin.ext (by match a with | ⟨0, _⟩ => rfl)
  have eG : idx_main_v35 (ix2 p q) = ix2 (0 : Fin 1) q :=
    funext fun a => Fin.ext (by match a with | ⟨0, _⟩ => rfl | ⟨1, _⟩ => rfl)
  rw [val_main_v36_apply, val_main_v34_apply, val_main_v28_apply, val_main_v33_apply, val_main_v35_apply,
    val_main_v27_apply, val_main_v24_apply, val_main_v30_apply, val_main_v26_apply, val_main_v32_apply,
    val_main_v25_apply, val_main_v31_apply, val_main_call0_v0_apply, val_main_v22_apply, val_main_call0_v1_apply,
    val_main_cst_3_apply]
  simp only [val_main_v23_apply, val_main_v29_apply, eL, eR, eL', eR', eB, eB', eM, eG]
  show (Scalar.select (x2 (ix1 p)) ((∑ k : Fin 128, x0 (ix2 p k) * x3 (ix2 q k)) + x4 (ix1 q)) (Ideal.ofBits .f32 0x00000000#32)
        + ((∑ k : Fin 128, val_main_v13 (F := Ideal) x0 x1 (ix2 p k) * x5 (ix2 q k)) + x6 (ix1 q)))
      + val_main_v21 (F := Ideal) x0 x7 x8 (ix2 (0 : Fin 1) q) = _
  rw [Ideal.ofBits_zero_f32]
  rfl

end Cert.ReferenceIdeal.AsLayer

end
-- ==== Proof.Operands.lean ====
/-
  The arrays the kernel's eight input windows stage, as functions of the program's arguments.

  Before the launch the host computes, from the arguments:
    * `neighbours x e`: for each node the sum of the features of the nodes its out-edges point to (a gather of rows
      of `x` at the edges' targets, negative targets wrapped once, scatter-added at the edges' sources into zeros);
    * `globalRow x Wg bg`: the mean feature row (column sums divided by 50000) times `Wgᵀ`, plus `bg`;
  and then lays the operands out: `neighbours`, the features `x` and the mask column are padded with zero rows from
  50000 to 53248 rows (13 tiles of 4096), the mask first converted to a number and reshaped to a column; the two
  weight matrices are transposed; the two biases are reshaped to one row.  The changes of float format on the way
  are part of the terms (they are the identity on extended reals, which a later module uses).
  Each equation is the composition of the host operations that write the buffer, read back from the program text.
-/
import proofs.«415633_j54013508715190_3_alg».proof.Proof.Gen.KernelIdeal.Frame
import Idealize.ShloMosaic.Lib.StableHlo.Run

noncomputable section

namespace Cert.KernelIdeal.Operands

open Cert.KernelIdeal Cert.KernelIdeal.Gen
open Idealize.ShloMosaic Idealize.ShloMosaic.TcCoe Idealize.SL.Sem Idealize.ShloMosaic.StableHlo

variable {F : FTy → Type} [FloatOps F]

/-- The aggregated neighbour features: rows of `x` gathered at the edges' targets and scatter-added at their sources. -/
def neighbours (x0 : (⟨S50000x128, .f32⟩ : BufTy).Contents (Elt F)) (x1 : (⟨S2x800000, .i32⟩ : BufTy).Contents (Elt F)) :
    (⟨S50000x128, .f32⟩ : BufTy).Contents (Elt F) :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![0, 0] x1 slices_S2x800000_S1x800000_0_0) shapeCasts_S1x800000_S800000)) (Host.gather gather_S50000x128_S800000x1_S800000x128_1_0_n_n_0_1_1128 x0 (broadcastInDim S800000x1 ![0] bcast_S800000_S800000x1_0 (select (cmpi .slt (shapeCast _ (extractStridedSlice S1x800000 ![1, 0] x1 slices_S2x800000_S1x800000_1_0) shapeCasts_S1x800000_S800000) (broadcastInDim S800000 ![] bcast_S_S800000 (constantI S_ 32 0#32))) (addi (shapeCast _ (extractStridedSlice S1x800000 ![1, 0] x1 slices_S2x800000_S1x800000_1_0) shapeCasts_S1x800000_S800000) (broadcastInDim S800000 ![] bcast_S_S800000 (constantI S_ 32 50000#32))) (shapeCast _ (extractStridedSlice S1x800000 ![1, 0] x1 slices_S2x800000_S1x800000_1_0) shapeCasts_S1x800000_S800000))))

/-- The global row: the mean of the feature rows through the global linear map. -/
def globalRow (x0 : (⟨S50000x128, .f32⟩ : BufTy).Contents (Elt F)) (x7 : (⟨S128x128, .f32⟩ : BufTy).Contents (Elt F))
    (x8 : (⟨S128, .f32⟩ : BufTy).Contents (Elt F)) : (⟨S1x128, .f32⟩ : BufTy).Contents (Elt F) :=
  addf (Host.dotGeneral dot_S1x128_S128x128_S1x128_1_0_0_1_n_n none (Host.divf (broadcastInDim S1x128 ![1] bcast_S128_S1x128_1 (Host.reduceAdd x0 (constant S_ .f32 0x00000000#32) reducesTo_S50000x128_S128_d0 h_S_)) (broadcastInDim S1x128 ![] bcast_S_S1x128 (constant S_ .f32 0x47435000#32))) (transpose S128x128 [1, 0] x7 transposes_S128x128_S128x128_1_0)) (broadcastInDim S1x128 ![1] bcast_S128_S1x128_1 x8)

variable (m : (ℓ : Loc nD τ sig) → Buf (Elt F) ℓ)

set_option maxRecDepth 8192 in
set_option maxHeartbeats 2000000 in
/-- Window 0 stages the neighbour features padded with zero rows. -/
theorem V_loc (c : Dev nD) : (V m c main_v22 : S53248x128.Idx → Elt F .f32)
    = pad S53248x128 ![0, 0] ![3248, 0] ![0, 0] (neighbours (m ((c : Thread nD τ).loc main_arg0)) (m ((c : Thread nD τ).loc main_arg1)))
        (sitofp (F := F) .f32 (constantI S_ 32 0#32)) pads_S50000x128_S53248x128_032480_000 h_S_ := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp <;> rfl

set_option maxRecDepth 8192 in
set_option maxHeartbeats 2000000 in
/-- Window 1 stages the node features padded with zero rows. -/
theorem V_x (c : Dev nD) : (V m c main_v24 : S53248x128.Idx → Elt F .bf16)
    = pad S53248x128 ![0, 0] ![3248, 0] ![0, 0] (truncf .bf16 (m ((c : Thread nD τ).loc main_arg0)) bitsLt_bf16_f32)
        (sitofp (F := F) .bf16 (constantI S_ 32 0#32)) pads_S50000x128_S53248x128_032480_000 h_S_ := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp <;> rfl

set_option maxRecDepth 8192 in
set_option maxHeartbeats 2000000 in
/-- Window 2 stages the mask, as numbers in one column, padded with zero rows. -/
theorem V_mask (c : Dev nD) : (V m c main_v28 : S53248x1.Idx → Elt F .bf16)
    = pad S53248x1 ![0, 0] ![3248, 0] ![0, 0]
        (shapeCast S50000x1 (truncf .bf16 (uitofp (F := F) .f32 (m ((c : Thread nD τ).loc main_arg2))) bitsLt_bf16_f32) shapeCasts_S50000_S50000x1)
        (sitofp (F := F) .bf16 (constantI S_ 32 0#32)) pads_S50000x1_S53248x1_032480_000 h_S_ := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp <;> rfl

set_option maxRecDepth 8192 in
set_option maxHeartbeats 2000000 in
/-- Window 3 stages the neighbour weights transposed. -/
theorem V_wn (c : Dev nD) : (V m c main_v30 : S128x128.Idx → Elt F .bf16)
    = truncf .bf16 (transpose S128x128 [1, 0] (m ((c : Thread nD τ).loc main_arg5)) transposes_S128x128_S128x128_1_0) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp <;> rfl

set_option maxRecDepth 8192 in
set_option maxHeartbeats 2000000 in
/-- Window 4 stages the root weights transposed. -/
theorem V_wr (c : Dev nD) : (V m c main_v32 : S128x128.Idx → Elt F .bf16)
    = truncf .bf16 (transpose S128x128 [1, 0] (m ((c : Thread nD τ).loc main_arg3)) transposes_S128x128_S128x128_1_0) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp <;> rfl

set_option maxRecDepth 8192 in
set_option maxHeartbeats 2000000 in
/-- Window 5 stages the neighbour bias as one row. -/
theorem V_bn (c : Dev nD) : (V m c main_v33 : S1x128.Idx → Elt F .f32)
    = shapeCast S1x128 (m ((c : Thread nD τ).loc main_arg6)) shapeCasts_S128_S1x128 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp <;> rfl

set_option maxRecDepth 8192 in
set_option maxHeartbeats 2000000 in
/-- Window 6 stages the root bias as one row. -/
theorem V_br (c : Dev nD) : (V m c main_v34 : S1x128.Idx → Elt F .f32)
    = shapeCast S1x128 (m ((c : Thread nD τ).loc main_arg4)) shapeCasts_S128_S1x128 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp <;> rfl

set_option maxRecDepth 8192 in
set_option maxHeartbeats 2000000 in
/-- Window 7 stages the global row. -/
theorem V_glob (c : Dev nD) : (V m c main_v21 : S1x128.Idx → Elt F .f32)
    = globalRow (m ((c : Thread nD τ).loc main_arg0)) (m ((c : Thread nD τ).loc main_arg7)) (m ((c : Thread nD τ).loc main_arg8)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp <;> rfl

end Cert.KernelIdeal.Operands

end
-- ==== Proof.TileBody.lean ====
/-
  What the kernel body computes for one tile of 4096 nodes, entry by entry.

  The body loads a tile of neighbour features `loc`, a tile of node features `x`, the tile's mask column, the two
  transposed weight matrices, the two bias rows and the global row, and stores

      ((x · Wrᵀ + br) * mask + (loc · Wnᵀ + bn)) + glob .

  Read at row `p` of the tile and channel `q`: each matrix product into a zero accumulator is the sum over the
  128 contracted entries, a one-row bias or the global row broadcast down the rows is the row's entry `q`, and the
  mask column broadcast along the channels is the column's entry `p`.  Changes of float format are the identity on
  extended reals.
-/
import proofs.«415633_j54013508715190_3_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.TileBody

open Cert.KernelIdeal Cert.KernelIdeal.Gen
open Idealize.ShloMosaic Idealize.ShloMosaic.ValueIdx

/-! ## The tile's matrix product at an index -/

theorem lhs_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- A [4096,128] by [128,128] product accumulated into zero, at row `p` and column `q`: the sum over the contracted
    axis of the row's entries times the column's. -/
theorem matmul_at {φ₁ φ₂ : FTy} (l : FVec Ideal S4096x128 φ₁) (r : FVec Ideal S128x128 φ₂) (p : Fin 4096) (q : Fin 128) :
    matmul dot_S4096x128_S128x128_S4096x128_1_0_0_1_n_n none l r (constant S4096x128 .f32 0x00000000#32) (ix2 p q)
      = ∑ k : Fin 128, l (ix2 p k) * r (ix2 k q) := by
  show FloatOps.matmul dot_S4096x128_S128x128_S4096x128_1_0_0_1_n_n none l r (constant S4096x128 .f32 0x00000000#32) (ix2 p q) = _
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 p q) ((ValueIdx.contrEquiv1 dot_S4096x128_S128x128_S4096x128_1_0_0_1_n_n 128 rfl rfl).symm k) = ix2 p k := funext fun a => Fin.ext (by
    match a with
    | ⟨0, _⟩ => exact lhs_0 _ _
    | ⟨1, _⟩ => exact (lhs_1 _ _).trans hk)
  have er : dot_S4096x128_S128x128_S4096x128_1_0_0_1_n_n.rhsIdx (ix2 p q) ((ValueIdx.contrEquiv1 dot_S4096x128_S128x128_S4096x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## The broadcasts at an index -/

/-- A one-row vector laid down the tile's rows reads, at `[p,q]`, the row's entry `q`. -/
theorem row_down_at {α : Type} (v : S1x128.Idx → α) (p : Fin 4096) (q : Fin 128) :
    broadcastTo S4096x128 v broadcasts_S1x128_S4096x128 (ix2 p q) = v (ix2 (0 : Fin 1) q) :=
  broadcastTo_apply v broadcasts_S1x128_S4096x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- A one-column vector laid along the channels reads, at `[p,q]`, the column's entry `p`. -/
theorem col_along_at {α : Type} (v : S4096x1.Idx → α) (p : Fin 4096) (q : Fin 128) :
    broadcastTo S4096x128 v broadcasts_S4096x1_S4096x128 (ix2 p q) = v (ix2 p (0 : Fin 1)) :=
  broadcastTo_apply v broadcasts_S4096x1_S4096x128 (ix2 p q) (ix2 p (0 : Fin 1)) (fun a => match a with
    | ⟨0, _⟩ => by show p.val = if (4096 : Nat) = 1 then 0 else p.val; rw [if_neg (by decide)]
    | ⟨1, _⟩ => by show 0 = if (1 : Nat) = 1 then 0 else _; rw [if_pos rfl])

/-! ## The stored value at an index -/

/-- The value the body stores, at row `p` of the tile and channel `q`, from the eight loaded blocks. -/
theorem stored_at (loc : Vec Ideal S4096x128 .f32) (wn : Vec Ideal S128x128 .bf16) (bn : Vec Ideal S1x128 .f32)
    (x : Vec Ideal S4096x128 .bf16) (wr : Vec Ideal S128x128 .bf16) (br : Vec Ideal S1x128 .f32)
    (mk : Vec Ideal S4096x1 .bf16) (gl : Vec Ideal S1x128 .f32) (p : Fin 4096) (q : Fin 128) :
    k0_pay1 (F := Ideal) loc wn bn x wr br mk gl (ix2 p q)
      = (((∑ k : Fin 128, x (ix2 p k) * wr (ix2 k q)) + br (ix2 (0 : Fin 1) q)) * mk (ix2 p (0 : Fin 1))
          + ((∑ k : Fin 128, loc (ix2 p k) * wn (ix2 k q)) + bn (ix2 (0 : Fin 1) q)))
        + gl (ix2 (0 : Fin 1) q) := by
  unfold k0_pay1
  simp only [shapeCast_self]
  rw [addf_apply, addf_apply, mulf_apply, addf_apply, addf_apply, matmul_at, matmul_at, row_down_at, row_down_at,
    row_down_at, col_along_at]
  rfl

end Cert.KernelIdeal.TileBody

end
-- ==== Proof.Tiles.lean ====
/-
  From tiles to the whole padded output.

  The grid has 13 points; at point `t` the windows over the three row-tiled arrays (neighbour features, node
  features, mask column) hold rows `4096·t … 4096·t + 4095`, the five small operands are staged whole, and the body's
  stored tile is written back to the same rows of the output.  So what point `t` writes back is rows
  `4096·t …` of ONE function of the staged arrays, `padded`: at row `r`, channel `q`,

      ((Σ_k X[r,k]·WR[k,q] + BR[0,q]) · M[r,0] + (Σ_k L[r,k]·WN[k,q] + BN[0,q])) + G[0,q] .

  The 13 tiles cover all 53248 rows (row `r` lies in tile `r / 4096`), hence the output array ends holding
  `padded` of the staged arrays.
-/
import proofs.«415633_j54013508715190_3_alg».proof.Proof.Gen.KernelIdeal.Frame
import proofs.«415633_j54013508715190_3_alg».proof.Proof.TileBody
import Idealize.ShloMosaic.Lib.Pipeline.Value
import Idealize.ShloMosaic.Lib.Tactic

noncomputable section

open scoped BigOperators

namespace Cert.KernelIdeal.Tiles

open Cert.KernelIdeal Cert.KernelIdeal.Gen Cert.KernelIdeal.TileBody
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- One entry of the padded output from the staged arrays. -/
def entry (L : S53248x128.Idx → EReal) (X : S53248x128.Idx → EReal) (M : S53248x1.Idx → EReal)
    (WN WR : S128x128.Idx → EReal) (BN BR G : S1x128.Idx → EReal) (r : Fin 53248) (q : Fin 128) : EReal :=
  (((∑ k : Fin 128, X (ix2 r k) * WR (ix2 k q)) + BR (ix2 (0 : Fin 1) q)) * M (ix2 r (0 : Fin 1))
      + ((∑ k : Fin 128, L (ix2 r k) * WN (ix2 k q)) + BN (ix2 (0 : Fin 1) q)))
    + G (ix2 (0 : Fin 1) q)

/-- The padded output as one array. -/
def padded (L : S53248x128.Idx → EReal) (X : S53248x128.Idx → EReal) (M : S53248x1.Idx → EReal)
    (WN WR : S128x128.Idx → EReal) (BN BR G : S1x128.Idx → EReal) : S53248x128.Idx → EReal :=
  fun i => entry L X M WN WR BN BR G (i 0) (i 1)

/-- The printed index maps over the grid: the row-tiled windows and the output are at block row `t`, block column 0;
    the small operands at block (0, 0). -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = t.val
    ∧ win0_8.index t (1 : Fin 2) = 0 :=
  (by decide +kernel : ∀ t : Fin grid0.N, _)

/-! ## Each input block read in its array -/

/-- Row `y 0` of window 0's block at tile `t` is row `4096·t + y 0` of its array. -/
theorem blk0_at (c : Dev nD) (t : Fin cfg0.N) (y : S4096x128.Idx) (i : S53248x128.Idx)
    (h0 : (i 0).val = 4096 * t.val + (y 0).val) (h1 : (i 1).val = (y 1).val) :
    (iblk m c 0 t : Vec Ideal S4096x128 .f32) y = (V m c main_v22 : S53248x128.Idx → Elt Ideal .f32) i := by
  obtain ⟨e0, e1, -, -, -, -, -, -, -, -, -, -, -, -, -, -, -, -⟩ := idx_facts t
  unfold iblk
  rw [View.read_apply]
  show V m c main_v22 _ = V m c main_v22 _
  congr 1
  funext a
  apply Fin.ext
  match a with
  | ⟨0, _⟩ => show win0_0.index t (0 : Fin 2) * 4096 + 1 * (y 0).val = (i 0).val; rw [e0, h0]; omega
  | ⟨1, _⟩ => show win0_0.index t (1 : Fin 2) * 128 + 1 * (y 1).val = (i 1).val; rw [e1, h1]; omega

/-- Row `y 0` of window 1's block at tile `t` is row `4096·t + y 0` of its array. -/
theorem blk1_at (c : Dev nD) (t : Fin cfg0.N) (y : S4096x128.Idx) (i : S53248x128.Idx)
    (h0 : (i 0).val = 4096 * t.val + (y 0).val) (h1 : (i 1).val = (y 1).val) :
    (iblk m c 1 t : Vec Ideal S4096x128 .bf16) y = (V m c main_v24 : S53248x128.Idx → Elt Ideal .bf16) i := by
  obtain ⟨-, -, e0, e1, -, -, -, -, -, -, -, -, -, -, -, -, -, -⟩ := idx_facts t
  unfold iblk
  rw [View.read_apply]
  show V m c main_v24 _ = V m c main_v24 _
  congr 1
  funext a
  apply Fin.ext
  match a with
  | ⟨0, _⟩ => show win0_1.index t (0 : Fin 2) * 4096 + 1 * (y 0).val = (i 0).val; rw [e0, h0]; omega
  | ⟨1, _⟩ => show win0_1.index t (1 : Fin 2) * 128 + 1 * (y 1).val = (i 1).val; rw [e1, h1]; omega

/-- Row `y 0` of window 2's block at tile `t` is row `4096·t + y 0` of its array. -/
theorem blk2_at (c : Dev nD) (t : Fin cfg0.N) (y : S4096x1.Idx) (i : S53248x1.Idx)
    (h0 : (i 0).val = 4096 * t.val + (y 0).val) (h1 : (i 1).val = (y 1).val) :
    (iblk m c 2 t : Vec Ideal S4096x1 .bf16) y = (V m c main_v28 : S53248x1.Idx → Elt Ideal .bf16) i := by
  obtain ⟨-, -, -, -, e0, e1, -, -, -, -, -, -, -, -, -, -, -, -⟩ := idx_facts t
  unfold iblk
  rw [View.read_apply]
  show V m c main_v28 _ = V m c main_v28 _
  congr 1
  funext a
  apply Fin.ext
  match a with
  | ⟨0, _⟩ => show win0_2.index t (0 : Fin 2) * 4096 + 1 * (y 0).val = (i 0).val; rw [e0, h0]; omega
  | ⟨1, _⟩ => show win0_2.index t (1 : Fin 2) * 1 + 1 * (y 1).val = (i 1).val; rw [e1, h1]; omega

/-- Window 3's one block is its whole array. -/
theorem blk3_at (c : Dev nD) (t : Fin cfg0.N) (y : S128x128.Idx) :
    (iblk m c 3 t : Vec Ideal S128x128 .bf16) y = (V m c main_v30 : S128x128.Idx → Elt Ideal .bf16) y := by
  obtain ⟨-, -, -, -, -, -, e0, e1, -, -, -, -, -, -, -, -, -, -⟩ := idx_facts t
  unfold iblk
  rw [View.read_apply]
  show V m c main_v30 _ = V m c main_v30 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- Window 4's one block is its whole array. -/
theorem blk4_at (c : Dev nD) (t : Fin cfg0.N) (y : S128x128.Idx) :
    (iblk m c 4 t : Vec Ideal S128x128 .bf16) y = (V m c main_v32 : S128x128.Idx → Elt Ideal .bf16) y := by
  obtain ⟨-, -, -, -, -, -, -, -, e0, e1, -, -, -, -, -, -, -, -⟩ := idx_facts t
  unfold iblk
  rw [View.read_apply]
  show V m c main_v32 _ = V m c main_v32 _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- Window 5's one block is its whole array. -/
theorem blk5_at (c : Dev nD) (t : Fin cfg0.N) (y : S1x128.Idx) :
    (iblk m c 5 t : Vec Ideal S1x128 .f32) y = (V m c main_v33 : S1x128.Idx → Elt Ideal .f32) y := by
  obtain ⟨-, -, -, -, -, -, -, -, -, -, e0, e1, -, -, -, -, -, -⟩ := idx_facts t
  unfold iblk
  rw [View.read_apply]
  show V m c main_v33 _ = V m c main_v33 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- Window 6's one block is its whole array. -/
theorem blk6_at (c : Dev nD) (t : Fin cfg0.N) (y : S1x128.Idx) :
    (iblk m c 6 t : Vec Ideal S1x128 .f32) y = (V m c main_v34 : S1x128.Idx → Elt Ideal .f32) y := by
  obtain ⟨-, -, -, -, -, -, -, -, -, -, -, -, e0, e1, -, -, -, -⟩ := idx_facts t
  unfold iblk
  rw [View.read_apply]
  show V m c main_v34 _ = V m c main_v34 _
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- Window 7's one block is its whole array. -/
theorem blk7_at (c : Dev nD) (t : Fin cfg0.N) (y : S1x128.Idx) :
    (iblk m c 7 t : Vec Ideal S1x128 .f32) y = (V m c main_v21 : S1x128.Idx → Elt Ideal .f32) y := by
  obtain ⟨-, -, -, -, -, -, -, -, -, -, -, -, -, -, e0, e1, -, -⟩ := idx_facts t
  unfold iblk
  rw [View.read_apply]
  show V m c main_v21 _ = V m c main_v21 _
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-! ## What a point writes back -/

/-- The body's stored value at row `p` of tile `t` is the padded output's entry at row `4096·t + p`. -/
theorem tile_at (c : Dev nD) (t : Fin cfg0.N) (p : Fin 4096) (q : Fin 128) (i : S53248x128.Idx)
    (h0 : (i 0).val = 4096 * t.val + p.val) (h1 : (i 1).val = q.val) :
    k0_pay1 (F := Ideal) (iblk m c 0 t) (iblk m c 3 t) (iblk m c 5 t) (iblk m c 1 t) (iblk m c 4 t) (iblk m c 6 t) (iblk m c 2 t) (iblk m c 7 t) (ix2 p q)
      = padded (V m c main_v22) (V m c main_v24) (V m c main_v28) (V m c main_v30) (V m c main_v32) (V m c main_v33) (V m c main_v34) (V m c main_v21) i := by
  obtain ⟨r, s, rfl⟩ : ∃ (r : Fin 53248) (s : Fin 128), i = ix2 r s := ⟨i 0, i 1, eq_ix2 i⟩
  obtain rfl : s = q := Fin.ext h1
  have hr : r.val = 4096 * t.val + p.val := h0
  refine (stored_at _ _ _ _ _ _ _ _ p s).trans ?_
  have b0 : ∀ k : Fin 128, (iblk m c 0 t : Vec Ideal S4096x128 .f32) (ix2 p k) = (V m c main_v22 : S53248x128.Idx → Elt Ideal .f32) (ix2 r k) :=
    fun k => blk0_at m c t (ix2 p k) (ix2 r k) hr rfl
  have b1 : ∀ k : Fin 128, (iblk m c 1 t : Vec Ideal S4096x128 .bf16) (ix2 p k) = (V m c main_v24 : S53248x128.Idx → Elt Ideal .bf16) (ix2 r k) :=
    fun k => blk1_at m c t (ix2 p k) (ix2 r k) hr rfl
  have b2 : (iblk m c 2 t : Vec Ideal S4096x1 .bf16) (ix2 p (0 : Fin 1)) = (V m c main_v28 : S53248x1.Idx → Elt Ideal .bf16) (ix2 r (0 : Fin 1)) :=
    blk2_at m c t (ix2 p (0 : Fin 1)) (ix2 r (0 : Fin 1)) hr rfl
  simp only [b0, b1, b2, blk3_at, blk4_at, blk5_at, blk6_at, blk7_at]
  rfl

theorem flushed_eq (c : Dev nD) (t : Fin cfg0.N) :
    (dats m 0 c).flushed 8 t = ((cfg0.win 8).blk t).view.read (Elt Ideal)
      (padded (V m c main_v22) (V m c main_v24) (V m c main_v28) (V m c main_v30) (V m c main_v32) (V m c main_v33) (V m c main_v34) (V m c main_v21)) := by
  show (cfg0.win 8).cut (grid0.coords t) ((dats m 0 c).after 8 t) = _
  rw [after0_8]
  unfold out0_8
  rw [View.canon_unit_zero hz]
  simp only [View.ld_unit_zero (S := S4096x128) hz, View.ld_unit_zero (S := S128x128) hz, View.ld_unit_zero (S := S1x128) hz,
    View.ld_unit_zero (S := S4096x1) hz]
  funext j
  obtain ⟨p, q, rfl⟩ : ∃ (p : Fin 4096) (q : Fin 128), j = ix2 p q := ⟨j 0, j 1, eq_ix2 j⟩
  rw [View.read_apply]
  obtain ⟨-, -, -, -, -, -, -, -, -, -, -, -, -, -, -, -, e0, e1⟩ := idx_facts t
  refine tile_at m c t p q _ ?_ ?_
  · show win0_8.index t (0 : Fin 2) * 4096 + 1 * p.val = _; rw [e0]; omega
  · show win0_8.index t (1 : Fin 2) * 128 + 1 * q.val = _; rw [e1]; omega

/-! ## The tiles cover the array -/

/-- An index of the output array is in point `t`'s block iff each coordinate is in the block's range. -/
theorem mem_blk (t : Fin cfg0.N) (i : S53248x128.Idx) :
    i ∈ ((cfg0.win 8).blk t).view.set ↔ ∀ a : Fin 2, win0_8.index t a * S4096x128.size a ≤ (i a).val ∧ (i a).val < win0_8.index t a * S4096x128.size a + S4096x128.size a := by
  show i ∈ ((View.whole main_v35).slice (win0_8.rect t)).set ↔ _
  rw [View.set_slice_whole, Rect.mem_set_unit]
  exact Iff.rfl

/-- Every row lies in the tile numbered by its quotient by 4096. -/
theorem cover (i : S53248x128.Idx) : ∃ t : Fin cfg0.N, (cfg0.win 8).flush t = true ∧ i ∈ ((cfg0.win 8).blk t).view.set := by
  have hi0 : (i 0).val < 53248 := (i 0).isLt
  have hi1 : (i 1).val < 128 := (i 1).isLt
  have hN : cfg0.N = 13 := N_0
  refine ⟨⟨(i 0).val / 4096, by rw [hN]; omega⟩, flush0_8 _, ?_⟩
  rw [mem_blk]
  obtain ⟨-, -, -, -, -, -, -, -, -, -, -, -, -, -, -, -, e0, e1⟩ := idx_facts ⟨(i 0).val / 4096, by rw [hN]; omega⟩
  intro a
  match a with
  | ⟨0, _⟩ => show win0_8.index _ (0 : Fin 2) * 4096 ≤ (i 0).val ∧ (i 0).val < win0_8.index _ (0 : Fin 2) * 4096 + 4096; rw [e0]; show (i 0).val / 4096 * 4096 ≤ (i 0).val ∧ (i 0).val < (i 0).val / 4096 * 4096 + 4096; omega
  | ⟨1, _⟩ => show win0_8.index _ (1 : Fin 2) * 128 ≤ (i 1).val ∧ (i 1).val < win0_8.index _ (1 : Fin 2) * 128 + 128; rw [e1]; omega

/-- The output array after the launch is the padded output of the staged arrays. -/
theorem final (c : Dev nD) : (dats m 0 c).arrAt 8 cfg0.N
    = padded (V m c main_v22) (V m c main_v24) (V m c main_v28) (V m c main_v30) (V m c main_v32) (V m c main_v33) (V m c main_v34) (V m c main_v21) :=
  (dats m 0 c).arrAt_eq_of_cover 8 _ (fun t _ => flushed_eq m c t) cover

end Cert.KernelIdeal.Tiles

end
-- ==== Proof.KernelResult.lean ====
/-
  The kernel program's result is the layer function of its arguments.

  After the launch the program returns the first 50000 rows of the padded output.  At node `r < 50000` and channel
  `j` the padded output's entry reads the staged arrays at row `r`, where every padded array is its unpadded source;
  a transposed weight at `[k,j]` is the weight at `[j,k]`; a bias reshaped to one row, at `[0,j]`, is the bias at
  `j`; the mask column at `[r,0]` is the mask bit of node `r` as the number 0 or 1; changes of float format are the
  identity.  What is left is the layer function with the root branch MULTIPLIED by the mask number, which is the
  select (`Cert.Layer.mul_bit`).
-/
import proofs.«415633_j54013508715190_3_alg».proof.Proof.Gen.KernelIdeal.Frame
import proofs.«415633_j54013508715190_3_alg».proof.Proof.Layer
import proofs.«415633_j54013508715190_3_alg».proof.Proof.Operands
import proofs.«415633_j54013508715190_3_alg».proof.Proof.Tiles
import Idealize.ShloMosaic.Lib.KernelVsHost
import Idealize.ShloMosaic.Lib.StableHlo.Run

noncomputable section

open scoped BigOperators

namespace Cert.KernelIdeal.Result

open Cert.KernelIdeal Cert.KernelIdeal.Gen Cert.KernelIdeal.Operands Cert.KernelIdeal.Tiles
open Idealize.ShloMosaic Idealize.ShloMosaic.TcCoe Idealize.SL.Sem Idealize.ShloMosaic.ValueIdx Idealize.ShloMosaic.StableHlo
open Cert.Layer

/-! ## The padded and re-laid operands at an index -/

/-- A [50000,128] array padded with rows below, read at a row of the source, is the source. -/
theorem pad_rows_at {α : Type} (x : S50000x128.Idx → α) (v : S_.Idx → α) (r : Fin 50000) (k : Fin 128) (r' : Fin 53248)
    (hr : r'.val = r.val) :
    pad S53248x128 ![0, 0] ![3248, 0] ![0, 0] x v pads_S50000x128_S53248x128_032480_000 h_S_ (ix2 r' k) = x (ix2 r k) :=
  pad_apply_of_inside _ _ _ x v pads_S50000x128_S53248x128_032480_000 h_S_ (ix2 r' k) (ix2 r k) (fun a => match a with
    | ⟨0, _⟩ => by show r'.val = 0 + r.val * (0 + 1); omega
    | ⟨1, _⟩ => by show k.val = 0 + k.val * (0 + 1); omega)

/-- A [50000,1] column padded with rows below, read at a row of the source, is the source. -/
theorem pad_col_at {α : Type} (x : S50000x1.Idx → α) (v : S_.Idx → α) (r : Fin 50000) (r' : Fin 53248)
    (hr : r'.val = r.val) :
    pad S53248x1 ![0, 0] ![3248, 0] ![0, 0] x v pads_S50000x1_S53248x1_032480_000 h_S_ (ix2 r' (0 : Fin 1)) = x (ix2 r (0 : Fin 1)) :=
  pad_apply_of_inside _ _ _ x v pads_S50000x1_S53248x1_032480_000 h_S_ (ix2 r' (0 : Fin 1)) (ix2 r (0 : Fin 1)) (fun a => match a with
    | ⟨0, _⟩ => by show r'.val = 0 + r.val * (0 + 1); omega
    | ⟨1, _⟩ => by show 0 = 0 + 0 * (0 + 1); omega)

/-- A vector of 50000 entries reshaped to a column, read at `[r,0]`, is the vector at `r`. -/
theorem col_at {α : Type} (x : S50000.Idx → α) (r : Fin 50000) :
    shapeCast S50000x1 x shapeCasts_S50000_S50000x1 (ix2 r (0 : Fin 1)) = x (ix1 r) :=
  shapeCast_apply x shapeCasts_S50000_S50000x1 (ix2 r (0 : Fin 1)) (ix1 r)
    (by rewrite [Shape.rowMajor_val_one, Shape.rowMajor_val_two]; show r.val = r.val * 1 + 0; omega)

/-- A vector of 128 entries reshaped to one row, read at `[0,j]`, is the vector at `j`. -/
theorem row_at {α : Type} (x : S128.Idx → α) (j : Fin 128) :
    shapeCast S1x128 x shapeCasts_S128_S1x128 (ix2 (0 : Fin 1) j) = x (ix1 j) :=
  shapeCast_apply x shapeCasts_S128_S1x128 (ix2 (0 : Fin 1) j) (ix1 j)
    (by rewrite [Shape.rowMajor_val_one, Shape.rowMajor_val_two]; show j.val = 0 * 128 + j.val; omega)

/-- A [128,128] matrix transposed, read at `[k,j]`, is the matrix at `[j,k]`. -/
theorem transposed_at {α : Type} (x : S128x128.Idx → α) (k j : Fin 128) :
    transpose S128x128 [1, 0] x transposes_S128x128_S128x128_1_0 (ix2 k j) = x (ix2 j k) :=
  transpose_apply [1, 0] x transposes_S128x128_S128x128_1_0 (ix2 k j) (ix2 j k) (fun b => match b with
    | ⟨0, _⟩ => rfl
    | ⟨1, _⟩ => rfl)

/-! ## The padded output at a node's row -/

variable (m : (ℓ : Loc nD τ sig) → Buf (Elt Ideal) ℓ) (ρ : Dev nD → PrngReg)

/-- At a row below 50000 the padded output of the staged arrays is the layer function of the arguments. -/
theorem padded_at (c : Dev nD) (r : Fin 50000) (j : Fin 128) (r' : Fin 53248) (hr : r'.val = r.val) :
    padded (V m c main_v22) (V m c main_v24) (V m c main_v28) (V m c main_v30) (V m c main_v32) (V m c main_v33) (V m c main_v34) (V m c main_v21) (ix2 r' j)
      = layer (m ((c : Thread nD τ).loc main_arg0)) (neighbours (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (globalRow (m ((c : Thread nD τ).loc main_arg0)) (m ((c : Thread nD τ).loc main_arg7)) (m ((c : Thread nD τ).loc main_arg8))) (ix2 r j) := by
  rw [V_loc, V_x, V_mask, V_wn, V_wr, V_bn, V_br, V_glob]
  show entry _ _ _ _ _ _ _ _ r' j = _
  unfold entry
  have hx : ∀ k : Fin 128, pad S53248x128 ![0, 0] ![3248, 0] ![0, 0] (truncf .bf16 (m ((c : Thread nD τ).loc main_arg0)) bitsLt_bf16_f32)
      (sitofp (F := Ideal) .bf16 (constantI S_ 32 0#32)) pads_S50000x128_S53248x128_032480_000 h_S_ (ix2 r' k) = (m ((c : Thread nD τ).loc main_arg0)) (ix2 r k) :=
    fun k => pad_rows_at _ _ r k r' hr
  have hl : ∀ k : Fin 128, pad S53248x128 ![0, 0] ![3248, 0] ![0, 0] (neighbours (m ((c : Thread nD τ).loc main_arg0)) (m ((c : Thread nD τ).loc main_arg1)))
      (sitofp (F := Ideal) .f32 (constantI S_ 32 0#32)) pads_S50000x128_S53248x128_032480_000 h_S_ (ix2 r' k) = neighbours (m ((c : Thread nD τ).loc main_arg0)) (m ((c : Thread nD τ).loc main_arg1)) (ix2 r k) :=
    fun k => pad_rows_at _ _ r k r' hr
  have hm : pad S53248x1 ![0, 0] ![3248, 0] ![0, 0]
      (shapeCast S50000x1 (truncf .bf16 (uitofp (F := Ideal) .f32 (m ((c : Thread nD τ).loc main_arg2))) bitsLt_bf16_f32) shapeCasts_S50000_S50000x1)
      (sitofp (F := Ideal) .bf16 (constantI S_ 32 0#32)) pads_S50000x1_S53248x1_032480_000 h_S_ (ix2 r' (0 : Fin 1))
        = ((((m ((c : Thread nD τ).loc main_arg2)) (ix1 r)).toNat : ℝ) : EReal) :=
    (pad_col_at _ _ r r' hr).trans (col_at _ r)
  have hwr : ∀ k : Fin 128, (truncf (F := Ideal) .bf16 (transpose S128x128 [1, 0] (m ((c : Thread nD τ).loc main_arg3)) transposes_S128x128_S128x128_1_0) bitsLt_bf16_f32 : FVec Ideal S128x128 .bf16) (ix2 k j) = (m ((c : Thread nD τ).loc main_arg3)) (ix2 j k) :=
    fun k => transposed_at _ k j
  have hwn : ∀ k : Fin 128, (truncf (F := Ideal) .bf16 (transpose S128x128 [1, 0] (m ((c : Thread nD τ).loc main_arg5)) transposes_S128x128_S128x128_1_0) bitsLt_bf16_f32 : FVec Ideal S128x128 .bf16) (ix2 k j) = (m ((c : Thread nD τ).loc main_arg5)) (ix2 j k) :=
    fun k => transposed_at _ k j
  simp only [hx, hl, hm, hwr, hwn, row_at]
  rw [mul_bit]
  rfl

/-! ## The program's result -/

/-- The returned array (the leading 50000 rows of the output after the launch) is the layer function of the
    arguments. -/
theorem tail_eq (c : Dev nD) :
    Pipeline.afterTail₀ cfgs (dats m) 0 (V0 m) [hostOps1] c main_v36 = layer (m ((c : Thread nD τ).loc main_arg0)) (neighbours (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (globalRow (m ((c : Thread nD τ).loc main_arg0)) (m ((c : Thread nD τ).loc main_arg7)) (m ((c : Thread nD τ).loc main_arg8))) := by
  unfold Pipeline.afterTail₀
  show StableHlo.after hostOps1 _ (Proc.devRef .tc main_v36) = _
  after_results
  have hA : Pipeline.withArrays (cfgs 0).spec c (V0 m c) (fun w => (dats m 0 c).arrAt w (cfgs 0).N) (Proc.tc.devRef main_v35)
      = padded (V m c main_v22) (V m c main_v24) (V m c main_v28) (V m c main_v30) (V m c main_v32) (V m c main_v33) (V m c main_v34) (V m c main_v21) :=
    (Pipeline.withArrays_arr spec0 launch0.win.arr_inj c _ _ 8).trans (final m c)
  rw [hA]
  funext i
  obtain ⟨r, j, rfl⟩ : ∃ (r : Fin 50000) (j : Fin 128), i = ix2 r j := ⟨i 0, i 1, eq_ix2 i⟩
  refine (extractStridedSlice_apply ![0, 0] _ slices_S53248x128_S50000x128_0_0 (ix2 r j)
    (ix2 (⟨r.val, by have := r.isLt; omega⟩ : Fin 53248) j) (fun a => match a with
      | ⟨0, _⟩ => by show r.val = 0 + r.val; omega
      | ⟨1, _⟩ => by show j.val = 0 + j.val; omega)).trans ?_
  exact padded_at m c r j _ rfl

/-- The kernel program's run, read: it terminates with the result array at the layer function of the arguments, and
    the arguments unchanged. -/
theorem run : θ_run defs (onTc (τ := τ) (main (F := Ideal))) ⟨m, fun _ => 0, ρ⟩ fun r => ∀ c : Dev nD,
      r.2.mem ((c.tc : Thread nD τ).loc main_v36) = layer (m ((c : Thread nD τ).loc main_arg0)) (neighbours (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (globalRow (m ((c : Thread nD τ).loc main_arg0)) (m ((c : Thread nD τ).loc main_arg7)) (m ((c : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).2 main_v36 (Pipeline.mem_restRefs_of main_v36 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Result

end
-- ==== Proof.lean ====
/-
  A graph layer with three branches, over 50000 nodes and 128 channels: for node `i` and channel `j`

      out[i,j] = (mask[i] ? Σ_k x[i,k]·Wr[j,k] + br[j] : 0) + (Σ_k loc[i,k]·Wn[j,k] + bn[j]) + glob[j]

  where `loc[i,:]` is the sum of the feature rows of the nodes that `i`'s out-edges point to and `glob` is the mean
  feature row through a third linear map.  Both programs compute `loc` and `glob` by the same host operations.
  The reference then applies the formula on whole arrays.  The kernel pads the rows to 13 tiles of 4096, computes
  each tile with two matrix products, gates the root branch by MULTIPLYING with the mask bit as a number, and
  the program keeps the first 50000 rows.  Over the extended reals the two agree entry by entry: tiling and padding
  do not change which entries are read, a matrix product into a zero accumulator is the sum, changes of float
  format are the identity, and `a · 1 = a`, `a · 0 = 0` for every extended real, so the product with the mask bit is
  the select.  No step needs the inputs to be finite.

  The three frames are the generated ones (the reference's from its generated run); the ideal pass rewrote nothing,
  so the preservation claim is trivial.
-/
import proofs.«415633_j54013508715190_3_alg».proof.Defs
import proofs.«415633_j54013508715190_3_alg».proof.Proof.Gen.Kernel
import proofs.«415633_j54013508715190_3_alg».proof.Proof.Gen.Kernel.Skeleton
import proofs.«415633_j54013508715190_3_alg».proof.Proof.Gen.Kernel.Launch
import proofs.«415633_j54013508715190_3_alg».proof.Proof.Gen.Kernel.Points
import proofs.«415633_j54013508715190_3_alg».proof.Proof.Gen.Kernel.Frame
import proofs.«415633_j54013508715190_3_alg».proof.Proof.Gen.KernelIdeal
import proofs.«415633_j54013508715190_3_alg».proof.Proof.Gen.KernelIdeal.Skeleton
import proofs.«415633_j54013508715190_3_alg».proof.Proof.Gen.KernelIdeal.Launch
import proofs.«415633_j54013508715190_3_alg».proof.Proof.Gen.KernelIdeal.Points
import proofs.«415633_j54013508715190_3_alg».proof.Proof.Gen.KernelIdeal.Frame
import proofs.«415633_j54013508715190_3_alg».proof.Proof.Gen.ReferenceIdeal
import proofs.«415633_j54013508715190_3_alg».proof.Proof.Gen.ReferenceIdeal.Run
import proofs.«415633_j54013508715190_3_alg».proof.Proof.Gen.ReferenceIdeal.Read
import proofs.«415633_j54013508715190_3_alg».proof.Proof.Gen.Pre_finite_inputs
import proofs.«415633_j54013508715190_3_alg».proof.Proof.RefStages
import proofs.«415633_j54013508715190_3_alg».proof.Proof.KernelResult
import Idealize.ShloMosaic.Adequacy
import Idealize.ShloMosaic.Init

noncomputable section

namespace Cert.Proof

open Idealize.ShloMosaic Idealize.SL.Sem

/-- The neighbour-feature stage of the reference is the kernel program's: the same host operations on the same
    arguments. -/
theorem neighbours_same (x0 : (⟨Cert.ReferenceIdeal.S50000x128, .f32⟩ : BufTy).Contents (Elt Ideal))
    (x1 : (⟨Cert.ReferenceIdeal.S2x800000, .i32⟩ : BufTy).Contents (Elt Ideal)) :
    Cert.ReferenceIdeal.Read.val_main_v13 (F := Ideal) x0 x1 = Cert.KernelIdeal.Operands.neighbours (F := Ideal) x0 x1 := rfl

/-- The global-row stage of the reference is the kernel program's. -/
theorem globalRow_same (x0 : (⟨Cert.ReferenceIdeal.S50000x128, .f32⟩ : BufTy).Contents (Elt Ideal))
    (x7 : (⟨Cert.ReferenceIdeal.S128x128, .f32⟩ : BufTy).Contents (Elt Ideal))
    (x8 : (⟨Cert.ReferenceIdeal.S128, .f32⟩ : BufTy).Contents (Elt Ideal)) :
    Cert.ReferenceIdeal.Read.val_main_v21 (F := Ideal) x0 x7 x8 = Cert.KernelIdeal.Operands.globalRow (F := Ideal) x0 x7 x8 := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result array at the layer function of the (agreeing) arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v36_eq, Cert.ReferenceIdeal.AsLayer.result_eq, neighbours_same, globalRow_same,
    h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
